-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x288x16384 : Shape := ⟨3, ![8, 288, 16384]⟩
abbrev S64x32x3x3 : Shape := ⟨4, ![64, 32, 3, 3]⟩
abbrev S64 : Shape := ⟨1, ![64]⟩
abbrev S_ : Shape := ⟨0, ![]⟩

class Facts : Prop where
  bcast_S_S8x288x16384 : S_.BroadcastsInDim S8x288x16384 (![] : Fin 0 → Fin S8x288x16384.rank)
  reducesTo_S8x288x16384_S_d0_1_2 : S8x288x16384.ReducesTo [0, 1, 2] S_
  h_S_ : 0 < S_.numel
  bcast_S_S64x32x3x3 : S_.BroadcastsInDim S64x32x3x3 (![] : Fin 0 → Fin S64x32x3x3.rank)
  reducesTo_S64x32x3x3_S_d0_1_2_3 : S64x32x3x3.ReducesTo [0, 1, 2, 3] S_
  bcast_S_S64 : S_.BroadcastsInDim S64 (![] : Fin 0 → Fin S64.rank)
  reducesTo_S64_S_d0 : S64.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S8x288x16384 .f32) (main_arg1 : FVec F S64x32x3x3 .f32) (main_arg2 : FVec F S64 .f32) (main_arg3 : FVec F S_ .f32) : IVec S_ 1 :=
  let main_v0 : FVec F S8x288x16384 .f32 := Host.absf main_arg0
  let main_cst : FVec F S_ .f32 := constant S_ .f32 0x7F800000#32
  let main_v1 : FVec F S8x288x16384 .f32 := broadcastInDim S8x288x16384 ![] bcast_S_S8x288x16384 main_cst
  let main_v2 : IVec S8x288x16384 1 := cmpf .olt main_v0 main_v1
  let main_c : IVec S_ 1 := constantI S_ 1 1#1
  let main_v3 : IVec S_ 1 := (fun x v => Host.reduce IntOp.andi x v reducesTo_S8x288x16384_S_d0_1_2 h_S_) main_v2 main_c
  let main_v4 : FVec F S64x32x3x3 .f32 := Host.absf main_arg1
  let main_cst_0 : FVec F S_ .f32 := constant S_ .f32 0x7F800000#32
  let main_v5 : FVec F S64x32x3x3 .f32 := broadcastInDim S64x32x3x3 ![] bcast_S_S64x32x3x3 main_cst_0
  let main_v6 : IVec S64x32x3x3 1 := cmpf .olt main_v4 main_v5
  let main_c_1 : IVec S_ 1 := constantI S_ 1 1#1
  let main_v7 : IVec S_ 1 := (fun x v => Host.reduce IntOp.andi x v reducesTo_S64x32x3x3_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8x288x16384 : Shape := ⟨3, ![8, 288, 16384]⟩
abbrev S64x32x3x3 : Shape := ⟨4, ![64, 32, 3, 3]⟩
abbrev S64 : Shape := ⟨1, ![64]⟩
abbrev S_ : Shape := ⟨0, ![]⟩
abbrev S18432 : Shape := ⟨1, ![18432]⟩
abbrev S288x64 : Shape := ⟨2, ![288, 64]⟩
abbrev S1x64 : Shape := ⟨2, ![1, 64]⟩
abbrev S1x1 : Shape := ⟨2, ![1, 1]⟩
abbrev S8x16384x64 : Shape := ⟨3, ![8, 16384, 64]⟩
abbrev S1x288x4096 : Shape := ⟨3, ![1, 288, 4096]⟩
abbrev S1x4096x64 : Shape := ⟨3, ![1, 4096, 64]⟩
abbrev S288x4096 : Shape := ⟨2, ![288, 4096]⟩
abbrev S4096x288 : Shape := ⟨2, ![4096, 288]⟩
abbrev S4096 : Shape := ⟨1, ![4096]⟩
abbrev S4096x1 : Shape := ⟨2, ![4096, 1]⟩
abbrev S4096x64 : Shape := ⟨2, ![4096, 64]⟩

abbrev nBuf : Space → Nat
  | .hbm => 21
  | .vmem => 8
  | .smem => 0
  | _ => 0

abbrev bufTy : (tb : Table) → Fin (tcTables nBuf tb) → BufTy
  | .hbm, ⟨0, _⟩ => ⟨S8x288x16384, .f32⟩
  | .hbm, ⟨1, _⟩ => ⟨S64x32x3x3, .f32⟩
  | .hbm, ⟨2, _⟩ => ⟨S64, .f32⟩
  | .hbm, ⟨3, _⟩ => ⟨S_, .f32⟩
  | .hbm, ⟨4, _⟩ => ⟨S18432, .f32⟩
  | .hbm, ⟨5, _⟩ => ⟨S288x64, .f32⟩
  | .hbm, ⟨6, _⟩ => ⟨S288x64, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S288x64, .f32⟩
  | .hbm, ⟨12, _⟩ => ⟨S288x64, .f32⟩
  | .hbm, ⟨13, _⟩ => ⟨S288x64, .bf16⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S1x64, .f32⟩
  | .hbm, ⟨19, _⟩ => ⟨S1x1, .f32⟩
  | .hbm, ⟨20, _⟩ => ⟨S8x16384x64, .f32⟩
  | .local _ .vmem, ⟨0, _⟩ => ⟨S1x288x4096, .f32⟩
  | .local _ .vmem, ⟨1, _⟩ => ⟨S1x288x4096, .f32⟩
  | .local _ .vmem, ⟨2, _⟩ => ⟨S288x64, .bf16⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S1x4096x64, .f32⟩
  | .local _ .vmem, ⟨7, _⟩ => ⟨S1x4096x64, .f32⟩
  | _, _ => ⟨S8x288x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x288x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S288x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S64x32x3x3_S18432 : S64x32x3x3.ShapeCasts S18432
  shapeCasts_S18432_S288x64 : S18432.ShapeCasts S288x64
  reducesTo_S288x64_S64_d0 : S288x64.ReducesTo [0] S64
  h_S_ : 0 < S_.numel
  bcast_S_S288x64 : S_.BroadcastsInDim S288x64 (![] : Fin 0 → Fin S288x64.rank)
  bitsLt_bf16_f32 : FTy.bits .bf16 < FTy.bits .f32
  bcast_S_S64 : S_.BroadcastsInDim S64 (![] : Fin 0 → Fin S64.rank)
  shapeCasts_S64_S1x64 : S64.ShapeCasts S1x64
  shapeCasts_S_S1x1 : S_.ShapeCasts S1x1
  inb_S1x288x4096_S1x288x4096_0_0_0 : ∀ a, (![0, 0, 0] : Fin 3 → Nat) a + S1x288x4096.size a ≤ S1x288x4096.size a
  h_S1x288x4096 : 0 < S1x288x4096.numel
  shapeCasts_S1x288x4096_S288x4096 : S1x288x4096.ShapeCasts S288x4096
  transposes_S288x4096_p1_0_S4096x288 : S288x4096.Transposes [1, 0] S4096x288
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S4096x288_S4096 : S4096x288.Reduces [1] S4096
  shapeCasts_S4096_S4096x1 : S4096.ShapeCasts S4096x1
  inb_S288x64_S288x64_0_0 : ∀ a, (![0, 0] : Fin 2 → Nat) a + S288x64.size a ≤ S288x64.size a
  h_S288x64 : 0 < S288x64.numel
  shapeCasts_S288x64_S288x64 : S288x64.ShapeCasts S288x64
  broadcasts_S4096x1_S4096x64 : S4096x1.Broadcasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  dot_S4096x288_S288x64_S4096x64_1_0_0_1_n_n_wf : DotDims.WF S4096x288 S288x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x288x4096.size a ≤ S8x288x16384.size a
  hwx0_0 : ∀ i : grid0.Coords, EltTy.bits .f32 = 32 ∨ (Rect.block (s := S8x288x16384) S1x288x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x64.size a ≤ S288x64.size a
  hwx0_1 : ∀ i : grid0.Coords, EltTy.bits .bf16 = 32 ∨ (Rect.block (s := S288x64) S288x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x64.size a ≤ S8x16384x64.size a
  hwx0_5 : ∀ i : grid0.Coords, EltTy.bits .f32 = 32 ∨ (Rect.block (s := S8x16384x64) S1x4096x64.size (cc0_transform_5 i) (hinb0_5 i)).WholeWords (EltTy.packing .f32)

variable [Facts₀]

def dot_S4096x288_S288x64_S4096x64_1_0_0_1_n_n : DotDims S4096x288 S288x64 S4096x64 where
  lhsContracting := [1]
  rhsContracting := [0]
  lhsNonContracting := [0]
  rhsNonContracting := [1]
  lhsBatch := []
  rhsBatch := []
  wf := dot_S4096x288_S288x64_S4096x64_1_0_0_1_n_n_wf

abbrev win0_0 : Pipeline.Window sig grid0 :=
  Pipeline.Window.ofSpec (Memref.whole main_arg0) S1x288x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S288x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x288x16384 : Shape := ⟨3, ![8, 288, 16384]⟩
abbrev S64x32x3x3 : Shape := ⟨4, ![64, 32, 3, 3]⟩
abbrev S64 : Shape := ⟨1, ![64]⟩
abbrev S_ : Shape := ⟨0, ![]⟩
abbrev S18432 : Shape := ⟨1, ![18432]⟩
abbrev S288x64 : Shape := ⟨2, ![288, 64]⟩
abbrev S8x16384x288 : Shape := ⟨3, ![8, 16384, 288]⟩
abbrev S8x16384 : Shape := ⟨2, ![8, 16384]⟩
abbrev S8x16384x1 : Shape := ⟨3, ![8, 16384, 1]⟩
abbrev S1x1x64 : Shape := ⟨3, ![1, 1, 64]⟩
abbrev S8x16384x64 : Shape := ⟨3, ![8, 16384, 64]⟩

abbrev nBuf : Space → Nat
  | .hbm => 30
  | .vmem => 0
  | .smem => 0
  | _ => 0

abbrev bufTy : (tb : Table) → Fin (tcTables nBuf tb) → BufTy
  | .hbm, ⟨0, _⟩ => ⟨S8x288x16384, .f32⟩
  | .hbm, ⟨1, _⟩ => ⟨S64x32x3x3, .f32⟩
  | .hbm, ⟨2, _⟩ => ⟨S64, .f32⟩
  | .hbm, ⟨3, _⟩ => ⟨S_, .f32⟩
  | .hbm, ⟨4, _⟩ => ⟨S18432, .f32⟩
  | .hbm, ⟨5, _⟩ => ⟨S288x64, .f32⟩
  | .hbm, ⟨6, _⟩ => ⟨S8x16384x288, .f32⟩
  | .hbm, ⟨7, _⟩ => ⟨S8x16384x288, .f32⟩
  | .hbm, ⟨8, _⟩ => ⟨S_, .f32⟩
  | .hbm, ⟨9, _⟩ => ⟨S8x16384, .f32⟩
  | .hbm, ⟨10, _⟩ => ⟨S8x16384x1, .f32⟩
  | .hbm, ⟨11, _⟩ => ⟨S288x64, .f32⟩
  | .hbm, ⟨12, _⟩ => ⟨S_, .f32⟩
  | .hbm, ⟨13, _⟩ => ⟨S64, .f32⟩
  | .hbm, ⟨14, _⟩ => ⟨S1x1x64, .f32⟩
  | .hbm, ⟨15, _⟩ => ⟨S8x16384x64, .f32⟩
  | .hbm, ⟨16, _⟩ => ⟨S8x16384x64, .f32⟩
  | .hbm, ⟨17, _⟩ => ⟨S8x16384x64, .f32⟩
  | .hbm, ⟨18, _⟩ => ⟨S8x16384x64, .f32⟩
  | .hbm, ⟨19, _⟩ => ⟨S_, .f32⟩
  | .hbm, ⟨20, _⟩ => ⟨S8x16384x64, .f32⟩
  | .hbm, ⟨21, _⟩ => ⟨S8x16384x64, .f32⟩
  | .hbm, ⟨22, _⟩ => ⟨S8x16384x64, .f32⟩
  | .hbm, ⟨23, _⟩ => ⟨S_, .f32⟩
  | .hbm, ⟨24, _⟩ => ⟨S8x16384x64, .f32⟩
  | .hbm, ⟨25, _⟩ => ⟨S8x16384x64, .f32⟩
  | .hbm, ⟨26, _⟩ => ⟨S8x16384x64, .f32⟩
  | .hbm, ⟨27, _⟩ => ⟨S1x1x64, .f32⟩
  | .hbm, ⟨28, _⟩ => ⟨S8x16384x64, .f32⟩
  | .hbm, ⟨29, _⟩ => ⟨S8x16384x64, .f32⟩
  | _, _ => ⟨S8x288x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  shapeCasts_S64x32x3x3_S18432 : S64x32x3x3.ShapeCasts S18432
  shapeCasts_S18432_S288x64 : S18432.ShapeCasts S288x64
  transposes_S8x288x16384_S8x16384x288_0_2_1 : S8x288x16384.Transposes [0, 2, 1] S8x16384x288
  reducesTo_S8x16384x288_S8x16384_d2 : S8x16384x288.ReducesTo [2] S8x16384
  h_S_ : 0 < S_.numel
  bcast_S8x16384_S8x16384x1_0_1 : S8x16384.BroadcastsInDim S8x16384x1 (![0, 1] : Fin 2 → Fin S8x16384x1.rank)
  reducesTo_S288x64_S64_d0 : S288x64.ReducesTo [0] S64
  bcast_S64_S1x1x64_2 : S64.BroadcastsInDim S1x1x64 (![2] : Fin 1 → Fin S1x1x64.rank)
  bcast_S8x16384x1_S8x16384x64_0_1_2 : S8x16384x1.BroadcastsInDim S8x16384x64 (![0, 1, 2] : Fin 3 → Fin S8x16384x64.rank)
  bcast_S1x1x64_S8x16384x64_0_1_2 : S1x1x64.BroadcastsInDim S8x16384x64 (![0, 1, 2] : Fin 3 → Fin S8x16384x64.rank)
  bcast_S_S8x16384x64 : S_.BroadcastsInDim S8x16384x64 (![] : Fin 0 → Fin S8x16384x64.rank)
  dot_S8x16384x288_S288x64_S8x16384x64_2_0_01_1_n_n_wf : DotDims.WF S8x16384x288 S288x64 S8x16384x64 [2] [0] [0, 1] [1] [] []

variable [Facts₀]

def dot_S8x16384x288_S288x64_S8x16384x64_2_0_01_1_n_n : DotDims S8x16384x288 S288x64 S8x16384x64 where
  lhsContracting := [2]
  rhsContracting := [0]
  lhsNonContracting := [0, 1]
  rhsNonContracting := [1]
  lhsBatch := []
  rhsBatch := []
  wf := dot_S8x16384x288_S288x64_S8x16384x64_2_0_01_1_n_n_wf

class Facts : Prop extends Facts₀ where

variable [Facts]
-- ==== Proof.RbfFinite.lean ====
/-
  Under the precondition every float input is finite: for each input the precondition asks `|v| < +∞` of every entry `v`
  (the absolute value being `max v (-v)`), all of them joined by "and". An extended real below `+∞` in absolute value is
  neither infinity, so it is a real number.
-/
import proofs.«124105_j28862180229634_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Rbf

open Idealize.ShloMosaic

/-- The pattern 0x7F800000 denotes +∞. -/
private theorem ofBits_inf : Ideal.ofBits .f32 0x7F800000#32 = (⊤ : EReal) := by
  simp [Ideal.ofBits, Ideal.ieee]

/-- An extended real with |x| < +∞, |x| being max x (-x), is a real number. -/
private theorem real_of_abs_lt_inf (x : EReal)
    (hx : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have hx' : Ideal.cmp .olt (max x (-x)) (Ideal.ofBits .f32 0x7F800000#32) = 1#1 := hx
  rw [ofBits_inf] at hx'
  induction x using EReal.rec with
  | bot => simp [Ideal.cmp] at hx'
  | coe r => exact ⟨r, rfl⟩
  | top => simp [Ideal.cmp] at hx'

/-- Under the precondition every entry of every float input is a real number. -/
theorem finite_of_pre [Cert.Pre_finite_inputs.Facts]
    (x : FVec Ideal Cert.Pre_finite_inputs.S8x288x16384 .f32) (w : FVec Ideal Cert.Pre_finite_inputs.S64x32x3x3 .f32)
    (b : FVec Ideal Cert.Pre_finite_inputs.S64 .f32) (g : FVec Ideal Cert.Pre_finite_inputs.S_ .f32)
    (h : Cert.Pre_finite_inputs.fn (F := Ideal) x w b g = fun _ => 1#1) :
    (∀ i, ∃ r : ℝ, x i = (r : EReal)) ∧ (∀ i, ∃ r : ℝ, w i = (r : EReal)) ∧ (∀ i, ∃ r : ℝ, b i = (r : EReal)) ∧ (∀ i, ∃ r : ℝ, g i = (r : EReal)) := by
  -- the rank-0 shape has exactly one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hx, hw⟩ := IntOp.andi_eq_one.1 h01
  refine ⟨fun i => ?_, fun i => ?_, fun i => ?_, fun i => ?_⟩
  · exact real_of_abs_lt_inf (x i) (Host.reduce_andi_all _ _ _ _ _ hx i)
  · exact real_of_abs_lt_inf (w i) (Host.reduce_andi_all _ _ _ _ _ hw i)
  · exact real_of_abs_lt_inf (b i) (Host.reduce_andi_all _ _ _ _ _ h2 i)
  · exact real_of_abs_lt_inf (g i) (Host.reduce_andi_all _ _ _ _ _ h3 i)

end Cert.Rbf

end
-- ==== Proof.RbfSpec.lean ====
/-
  The Gaussian (radial basis function) layer as one function of its arguments, and the law that joins its two spellings.

  For a batch `p`, a position `l` and an output channel `o` the layer's value is
  `exp (-γ · ‖x(p,·,l) − wv(·,o)‖²) + b(o)`, where `wv` is the weight tensor re-read as a 288 × 64 matrix. Both programs
  expand the squared distance as `Σ x² + Σ wv² − 2 · Σ x·wv`. One multiplies the whole bracket by `-γ`; the other
  distributes `γ` first: it scales the matrix by `2γ` before the product and multiplies the two sums of squares by `γ`
  and `-γ` separately. On real numbers the two exponents are one number, by distributivity; on the extended reals
  distributivity fails at the infinities, so the law is stated for real entries.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- A finite sum of real numbers read in the extended reals is the real sum. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The law on real numbers: distributing `γ` over the expanded squared distance. -/
theorem exponent_law_real {n : ℕ} (c g : ℝ) (X W : Fin n → ℝ) :
    ((∑ k, X k * ((c * g) * W k)) - g * ∑ k, X k * X k) + (-g) * ∑ k, W k * W k
      = (-g) * (((∑ k, X k * X k) + ∑ k, W k * W k) - c * ∑ k, X k * W k) := by
  have h1 : (∑ k, X k * ((c * g) * W k)) = (c * g) * ∑ k, X k * W k := by
    rw [Finset.mul_sum]; exact Finset.sum_congr rfl fun k _ => by ring
  rw [h1]; ring

/-- The same law on the extended reals, for entries that are real numbers: the exponent with `γ` distributed (the
    matrix scaled by `c·γ` before the product) is the exponent with `-γ` outside the bracket. -/
theorem exponent_law {n : ℕ} (c g : EReal) (X W : Fin n → EReal) (hc : ∃ r : ℝ, c = (r : EReal)) (hg : ∃ r : ℝ, g = (r : EReal))
    (hX : ∀ k, ∃ r : ℝ, X k = (r : EReal)) (hW : ∀ k, ∃ r : ℝ, W k = (r : EReal)) :
    ((∑ k, X k * ((c * g) * W k)) - g * ∑ k, X k * X k) + (-g) * ∑ k, W k * W k
      = (-g) * (((∑ k, X k * X k) + ∑ k, W k * W k) - c * ∑ k, X k * W k) := by
  obtain ⟨c', rfl⟩ := hc
  obtain ⟨g', rfl⟩ := hg
  choose X' hX' using hX
  choose W' hW' using hW
  obtain rfl : X = fun k => (X' k : EReal) := funext hX'
  obtain rfl : W = fun k => (W' k : EReal) := funext hW'
  simp only [← EReal.coe_mul, ← EReal.coe_neg, coe_sum, ← EReal.coe_add, ← EReal.coe_sub]
  exact congrArg _ (exponent_law_real c' g' X' W')

/-- The float literal `2.0` denotes a real number. -/
theorem two_real : ∃ r : ℝ, Ideal.ofBits .f32 0x40000000#32 = (r : EReal) :=
  ⟨2, by simp [Ideal.ofBits, Ideal.ieee, -EReal.coe_mul]; norm_num⟩

/-- The layer, index by index: at `(p, l, o)`, `exp (-γ · ((Σₖ x(p,k,l)² + Σₖ wv(k,o)²) − 2 · Σₖ x(p,k,l)·wv(k,o))) + b(o)`,
    the literal `2.0` kept as its pattern. -/
def rbf (x : (⟨3, ![8, 288, 16384]⟩ : Shape).Idx → EReal) (wv : (⟨2, ![288, 64]⟩ : Shape).Idx → EReal)
    (b : (⟨1, ![64]⟩ : Shape).Idx → EReal) (g : (⟨0, ![]⟩ : Shape).Idx → EReal) : (⟨3, ![8, 16384, 64]⟩ : Shape).Idx → EReal :=
  fun i => Ideal.exp ((-(g ix0)) * (((∑ k : Fin 288, x (ix3 (i 0) k (i 1)) * x (ix3 (i 0) k (i 1)))
      + ∑ k : Fin 288, wv (ix2 k (i 2)) * wv (ix2 k (i 2)))
      - Ideal.ofBits .f32 0x40000000#32 * ∑ k : Fin 288, x (ix3 (i 0) k (i 1)) * wv (ix2 k (i 2)))) + b (ix1 (i 2))

end Cert.Rbf

end
-- ==== Proof.RbfReference.lean ====
/-
  The reference program computes the layer: read one operation at a time, its result at `(p, l, o)` is
  `exp (-γ · ((Σₖ x(p,k,l)² + Σₖ wv(k,o)²) − 2 · Σₖ x(p,k,l)·wv(k,o))) + b(o)`, with `wv` the weight tensor re-read as a
  288 × 64 matrix. The transposed input at `(p, l, k)` is the input at `(p, k, l)`; the two sums of squares start from
  the literal zero.
-/
import proofs.«124105_j28862180229634_1_alg».proof.Proof.Gen.ReferenceIdeal.Read
import proofs.«124105_j28862180229634_1_alg».proof.Proof.RbfSpec

noncomputable section

open scoped BigOperators

namespace Cert.Rbf.Reference

open Cert.ReferenceIdeal Cert.ReferenceIdeal.Gen Cert.ReferenceIdeal.Read Idealize.ShloMosaic Idealize.ShloMosaic.ValueIdx

/-- The input entry a row's sum of squares reads at position `k`: the transposed input at `(p, l, k)` is the input at `(p, k, l)`. -/
theorem idx_rowsq (i : S8x16384x64.Idx) (k : Fin 288) :
    idx_main_v2 (idx_main_v4 (idx_main_v5 (idx_main_v10 i)) k) = ix3 (i 0) k (i 1) :=
  funext fun a => Fin.ext (by match a with | ⟨0, _⟩ => rfl | ⟨1, _⟩ => rfl | ⟨2, _⟩ => rfl)

/-- The input entry the product reads at position `k`: the same entry. -/
theorem idx_dot_lhs (i : S8x16384x64.Idx) (k : Fin 288) : idx_main_v2 (lidx_main_v9 i k) = ix3 (i 0) k (i 1) :=
  funext fun a => Fin.ext (by match a with | ⟨0, _⟩ => rfl | ⟨1, _⟩ => rfl | ⟨2, _⟩ => rfl)

/-- The matrix entry a column's sum of squares reads at position `k`. -/
theorem idx_colsq (i : S8x16384x64.Idx) (k : Fin 288) : idx_main_v7 (idx_main_v8 (idx_main_v11 i)) k = ix2 k (i 2) :=
  funext fun a => Fin.ext (by match a with | ⟨0, _⟩ => rfl | ⟨1, _⟩ => rfl)

/-- The matrix entry the product reads at position `k`. -/
theorem idx_dot_rhs (i : S8x16384x64.Idx) (k : Fin 288) : ridx_main_v9 i k = ix2 k (i 2) :=
  funext fun a => Fin.ext (by match a with | ⟨0, _⟩ => rfl | ⟨1, _⟩ => rfl)

/-- The bias entry added at `(p, l, o)` is `b(o)`. -/
theorem idx_bias (i : S8x16384x64.Idx) : idx_main_v20 (idx_main_v21 i) = ix1 (i 2) :=
  funext fun a => Fin.ext (by match a with | ⟨0, _⟩ => rfl)

/-- The reference's result is the layer of the input, the re-read weight matrix, the bias and `γ`. -/
theorem reference_eq (x0 : (⟨S8x288x16384, .f32⟩ : BufTy).Contents (Elt Ideal)) (x1 : (⟨S64x32x3x3, .f32⟩ : BufTy).Contents (Elt Ideal))
    (x2 : (⟨S64, .f32⟩ : BufTy).Contents (Elt Ideal)) (x3 : (⟨S_, .f32⟩ : BufTy).Contents (Elt Ideal)) :
    val_main_v22 (F := Ideal) x0 x1 x2 x3 = Cert.Rbf.rbf x0 (val_main_v1 (F := Ideal) x1) x2 x3 := by
  funext i
  rw [val_main_v22_apply, val_main_v19_apply, val_main_v18_apply, val_main_v17_apply, val_main_v16_apply,
    val_main_v15_apply, val_main_v12_apply, val_main_v10_apply, val_main_v5_apply, val_main_v4_apply,
    val_main_v11_apply, val_main_v8_apply, val_main_v7_apply, val_main_v14_apply, val_main_v13_apply,
    val_main_cst_1_apply, val_main_v9_apply, val_main_v21_apply, val_main_v20_apply]
  simp only [val_main_v3_apply, val_main_v2_apply, val_main_v6_apply, val_main_cst_apply, val_main_cst_0_apply,
    idx_rowsq, idx_dot_lhs, idx_colsq, idx_dot_rhs, idx_bias, Ideal.addf_def, Ideal.subf_def, Ideal.mulf_def,
    Ideal.hostNegf_def, Ideal.negf_def, Ideal.hostUnary_exp_def, Ideal.ofBits_def, Ideal.ofBits_zero_f32, zero_add]
  rfl

end Cert.Rbf.Reference

end
-- ==== Proof.RbfHost.lean ====
/-
  What the kernel finds in the four small arrays the program prepares before the call, entry by entry.

  With `wv` the weight tensor re-read as a 288 × 64 matrix (two reshapes, the same two the reference makes), the program
  prepares: the matrix `(2·γ)·wv` narrowed to another float format (the identity on the extended reals); the row
  `(-γ) · (0 + Σₖ wv(k,o)²)`; the bias laid as a row; and `γ` laid as a 1 × 1 array.
-/
import proofs.«124105_j28862180229634_1_alg».proof.Proof.Gen.KernelIdeal.Frame
import Idealize.ShloMosaic.Lib.StableHlo.Run
import Idealize.ShloMosaic.Lib.ValueLayout
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.Rbf.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The weight tensor re-read as a 288 × 64 matrix. -/
abbrev wv (c : Dev nD) : FVec Ideal S288x64 .f32 :=
  shapeCast S288x64 (shapeCast S18432 (m ((c : Thread nD τ).loc main_arg1)) shapeCasts_S64x32x3x3_S18432) shapeCasts_S18432_S288x64

/-- `γ`, the one entry of the rank-0 argument. -/
abbrev gam (c : Dev nD) : EReal := (m ((c : Thread nD τ).loc main_arg3) : S_.Idx → EReal) ix0

/-- The scaled matrix, as the operations that make it. -/
theorem scaled_eq (c : Dev nD) : (V m c main_v7 : S288x64.Idx → EReal)
    = truncf .bf16 (mulf (broadcastInDim S288x64 ![] bcast_S_S288x64
        (mulf (constant (F := Ideal) S_ .f32 0x40000000#32) (m ((c : Thread nD τ).loc main_arg3)))) (wv m c)) bitsLt_bf16_f32 := by
  dsimp only [Gen.V, Gen.hostOps0]
  after_results
  rfl

/-- The scaled matrix at `(k, o)` is `(2·γ)·wv(k,o)`. -/
theorem scaled_apply (c : Dev nD) (k : Fin 288) (o : Fin 64) :
    (V m c main_v7 : S288x64.Idx → EReal) (ix2 k o) = (Ideal.ofBits .f32 0x40000000#32 * gam m c) * wv m c (ix2 k o) := by
  rw [scaled_eq, truncf_apply, mulf_apply, broadcastInDim_apply _ bcast_S_S288x64 _ _ ix0 (fun a => a.elim0), mulf_apply, constant_apply]

/-- The row of scaled column norms, as the operations that make it. -/
theorem negsq_eq (c : Dev nD) : (V m c main_v11 : S1x64.Idx → EReal)
    = shapeCast S1x64 (mulf (broadcastInDim S64 ![] bcast_S_S64 (Host.negf (F := Ideal) (m ((c : Thread nD τ).loc main_arg3))))
        (Host.reduceAdd (F := Ideal) (mulf (wv m c) (wv m c)) (constant (F := Ideal) S_ .f32 0x00000000#32) reducesTo_S288x64_S64_d0 h_S_))
        shapeCasts_S64_S1x64 := by
  dsimp only [Gen.V, Gen.hostOps0]
  after_results
  rfl

/-- A column's sum of squares, from the literal zero. -/
theorem colsum_apply (y : FVec Ideal S288x64 .f32) (o : Fin 64) :
    Host.reduceAdd (F := Ideal) y (constant (F := Ideal) S_ .f32 0x00000000#32) reducesTo_S288x64_S64_d0 h_S_ (ix1 o)
      = ∑ k : Fin 288, y (ix2 k o) := by
  simp only [Host.reduceAdd, Ideal.hostReduceAdd_def]
  rw [Ideal.hostReduceAdd_single reducesTo_S288x64_S64_d0 (by decide)]
  rw [constant_apply, Ideal.ofBits_zero_f32, zero_add]
  exact Finset.sum_congr rfl fun k _ => congrArg y (funext fun a => Fin.ext (by match a with | ⟨0, _⟩ => rfl | ⟨1, _⟩ => rfl))

/-- The row at `o` is `(-γ) · Σₖ wv(k,o)²`. -/
theorem negsq_apply (c : Dev nD) (u : Fin 1) (o : Fin 64) :
    (V m c main_v11 : S1x64.Idx → EReal) (ix2 u o) = (-(gam m c)) * ∑ k : Fin 288, wv m c (ix2 k o) * wv m c (ix2 k o) := by
  rw [negsq_eq, shapeCast_a_1a_apply, mulf_apply, broadcastInDim_apply _ bcast_S_S64 _ _ ix0 (fun a => a.elim0), colsum_apply]
  rfl

/-- The bias row, as the reshape that makes it. -/
theorem bias_eq (c : Dev nD) : (V m c main_v12 : S1x64.Idx → EReal)
    = shapeCast S1x64 (m ((c : Thread nD τ).loc main_arg2)) shapeCasts_S64_S1x64 := by
  dsimp only [Gen.V, Gen.hostOps0]
  after_results
  rfl

/-- The bias row at `o` is `b(o)`. -/
theorem bias_apply (c : Dev nD) (u : Fin 1) (o : Fin 64) :
    (V m c main_v12 : S1x64.Idx → EReal) (ix2 u o) = (m ((c : Thread nD τ).loc main_arg2) : S64.Idx → EReal) (ix1 o) := by
  rw [bias_eq, shapeCast_a_1a_apply]

/-- The 1 × 1 array, as the reshape that makes it. -/
theorem gamma_eq (c : Dev nD) : (V m c main_v13 : S1x1.Idx → EReal)
    = shapeCast S1x1 (m ((c : Thread nD τ).loc main_arg3)) shapeCasts_S_S1x1 := by
  dsimp only [Gen.V, Gen.hostOps0]
  after_results
  rfl

/-- Its one entry is `γ`: the rank-0 array has one index. -/
theorem gamma_apply (c : Dev nD) (j : S1x1.Idx) : (V m c main_v13 : S1x1.Idx → EReal) j = gam m c := by
  rw [gamma_eq]
  unfold shapeCast
  exact congrArg _ (eq_ix0 _)

end Cert.Rbf.Host

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«124105_j28862180229634_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.RbfBody.lean ====
/-
  What the kernel body stores, read at one entry of its block.

  The body holds a 288 × 4096 slab `X` of the input (one batch, 4096 positions), the scaled weight matrix `M` (288 × 64),
  two rows `n` and `b` of length 64 and the scalar `γ`. It transposes the slab, sums each row's squares, multiplies the
  transposed slab by `M`, and stores `exp (Σₖ X(k,r)·M(k,o) − γ · Σₖ X(k,r)² + n(o)) + b(o)` at `(r, o)`. Narrowing a float to
  another format is the identity on the extended reals, so the narrowed operands of the product are the operands.
-/
import proofs.«124105_j28862180229634_1_alg».proof.Proof.Gen.KernelIdeal.Skeleton
import proofs.«124105_j28862180229634_1_alg».proof.Proof.LibPlainDotAny
import proofs.«124105_j28862180229634_1_alg».proof.Proof.LibKeepdims
import Idealize.ShloMosaic.Lib.ValueLayout
import Idealize.ShloMosaic.Lib.Pipeline.Value
import Idealize.ShloMosaic.PureOps.Ideal.Laws

noncomputable section

open scoped BigOperators

namespace Cert.Rbf.Body

open Cert.KernelIdeal Cert.KernelIdeal.Gen Idealize.ShloMosaic Idealize.ShloMosaic.ValueIdx

/-- The exponential of a vector, at an index. -/
theorem exp_apply {s : Shape} {φ : FTy} (v : FVec Ideal s φ) (i : s.Idx) : exp v i = Ideal.exp (v i) := rfl

/-- The slab transposed, at `(r, k)`, is the slab at `(k, r)`. -/
theorem slabT_apply (x0 : Vec Ideal S1x288x4096 .f32) (r : Fin 4096) (k : Fin 288) :
    transpose S4096x288 [1, 0] (shapeCast S288x4096 x0 shapeCasts_S1x288x4096_S288x4096) transposes_S288x4096_p1_0_S4096x288 (ix2 r k)
      = x0 (ix3 (0 : Fin 1) k r) := by
  rw [transpose_ix2_apply, shapeCast_1ab_ab_apply]

/-- A row's sum along the second axis of a 4096 × 288 array, from the zero accumulator. -/
theorem rowsum_apply (v : FVec Ideal S4096x288 .f32) (hφ : FKind.Formats .f32)
    (hacc : (0x00000000#32 : BitVec 32) = 0x00000000#32) (r : Fin 4096) :
    multiReduction .add [1] S4096 v 0x00000000#32 reduces_S4096x288_S4096 hφ hacc (ix1 r) = ∑ k : Fin 288, v (ix2 r k) :=
  (Ideal.multiReduction_add_single v 0x00000000#32 reduces_S4096x288_S4096 hφ hacc (ix1 r)).trans
    (Finset.sum_congr rfl fun k _ => congrArg v (funext fun a => Fin.ext (by match a with | ⟨0, _⟩ => rfl | ⟨1, _⟩ => rfl)))

/-- The product of a 4096 × 288 by a 288 × 64 array into the zero accumulator, at `(r, o)`. -/
theorem product_apply {φ₁ φ₂ : FTy} (A : FVec Ideal S4096x288 φ₁) (B : FVec Ideal S288x64 φ₂) (r : Fin 4096) (o : Fin 64) :
    matmul dot_S4096x288_S288x64_S4096x64_1_0_0_1_n_n none A B (constant S4096x64 .f32 0x00000000#32) (ix2 r o)
      = ∑ k : Fin 288, A (ix2 r k) * B (ix2 k o) :=
  PlainDot.matmul_zero_apply_any 4096 288 64 none A B (ix2 r o)

/-- The scalar read out of its 1 × 1 block. -/
theorem scalar_apply (x4 : Vec Ideal S1x1 .f32) : extractAt ![0, 0] x4 inpos_S1x1_p0_0 = x4 (ix2 (0 : Fin 1) (0 : Fin 1)) :=
  congrArg x4 (funext fun a => Fin.ext (by match a with | ⟨0, _⟩ => rfl | ⟨1, _⟩ => rfl))

/-- The stored block at `(u, r, o)`. -/
theorem body_apply (x0 : Vec Ideal S1x288x4096 .f32) (x4 : Vec Ideal S1x1 .f32) (x1 : Vec Ideal S288x64 .bf16)
    (x2 x3 : Vec Ideal S1x64 .f32) (u : Fin 1) (r : Fin 4096) (o : Fin 64) :
    k0_pay1 (F := Ideal) x0 x4 x1 x2 x3 (ix3 u r o)
      = Ideal.exp (((∑ k : Fin 288, x0 (ix3 (0 : Fin 1) k r) * x1 (ix2 k o))
          - x4 (ix2 (0 : Fin 1) (0 : Fin 1)) * ∑ k : Fin 288, x0 (ix3 (0 : Fin 1) k r) * x0 (ix3 (0 : Fin 1) k r))
          + x2 (ix2 (0 : Fin 1) o)) + x3 (ix2 (0 : Fin 1) o) := by
  unfold k0_pay1
  rw [shapeCast_ab_1ab_apply]
  simp only [addf_apply, exp_apply, subf_apply]
  rw [product_apply, Keepdims.broadcastTo_a1_ab_apply, broadcastTo_1b_ab_apply, broadcastTo_1b_ab_apply, mulf_apply,
    broadcast_apply, Keepdims.shapeCast_a_a1_apply, rowsum_apply, shapeCast_self, shapeCast_self]
  have hT : ∀ k : Fin 288, transpose S4096x288 [1, 0] (shapeCast S288x4096 x0 shapeCasts_S1x288x4096_S288x4096)
      transposes_S288x4096_p1_0_S4096x288 (ix2 r k) = x0 (ix3 (0 : Fin 1) k r) := fun k => slabT_apply x0 r k
  simp only [truncf_apply, mulf_apply, hT, shapeCast_self]
  rw [scalar_apply]

end Cert.Rbf.Body

end
-- ==== Proof.RbfBlocks.lean ====
/-
  From blocks to the whole array.

  The grid has 8 × 4 points; point `(p, q)` reads the slab `x(p, ·, 4096q … 4096q+4095)`, the four small arrays whole, and
  writes the block `out(p, 4096q … 4096q+4095, ·)`. Every entry the body stores is the same function of the arrays the
  region finds, read at the entry's own position in the whole output; the 32 blocks tile the output, so after the run the
  output IS that function.
-/
import proofs.«124105_j28862180229634_1_alg».proof.Proof.Gen.KernelIdeal.Value
import proofs.«124105_j28862180229634_1_alg».proof.Proof.RbfBody
import Idealize.ShloMosaic.Lib.Pipeline.Value

set_option maxRecDepth 16384

noncomputable section

open scoped BigOperators

namespace Cert.Rbf.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer as the kernel spells it, over the input `X`, the scaled matrix `M`, the two rows `n`, `b` and the 1 × 1 array
    `g`: at `(p, l, o)`, `exp (Σₖ X(p,k,l)·M(k,o) − g · Σₖ X(p,k,l)² + n(o)) + b(o)`. -/
def kerG (X : S8x288x16384.Idx → EReal) (M : S288x64.Idx → EReal) (n b : S1x64.Idx → EReal) (g : S1x1.Idx → EReal) :
    S8x16384x64.Idx → EReal :=
  fun i => Ideal.exp (((∑ k : Fin 288, X (ix3 (i 0) k (i 1)) * M (ix2 k (i 2)))
      - g (ix2 (0 : Fin 1) (0 : Fin 1)) * ∑ k : Fin 288, X (ix3 (i 0) k (i 1)) * X (ix3 (i 0) k (i 1)))
      + n (ix2 (0 : Fin 1) (i 2))) + b (ix2 (0 : Fin 1) (i 2))

/-- An entry `(u, r, o)` of the stored block is the layer at the array position `i` whenever the loaded blocks are the
    arrays read at the positions `i` names. -/
theorem block_at (x0 : Vec Ideal S1x288x4096 .f32) (x4 : Vec Ideal S1x1 .f32) (x1 : Vec Ideal S288x64 .bf16)
    (x2 x3 : Vec Ideal S1x64 .f32) (X : S8x288x16384.Idx → EReal) (M : S288x64.Idx → EReal) (n b : S1x64.Idx → EReal)
    (g : S1x1.Idx → EReal) (i : S8x16384x64.Idx) (u : Fin 1) (r : Fin 4096) (o : Fin 64)
    (h0 : ∀ k : Fin 288, x0 (ix3 (0 : Fin 1) k r) = X (ix3 (i 0) k (i 1)))
    (h1 : ∀ k : Fin 288, x1 (ix2 k o) = M (ix2 k (i 2)))
    (h2 : x2 (ix2 (0 : Fin 1) o) = n (ix2 (0 : Fin 1) (i 2))) (h3 : x3 (ix2 (0 : Fin 1) o) = b (ix2 (0 : Fin 1) (i 2)))
    (h4 : x4 (ix2 (0 : Fin 1) (0 : Fin 1)) = g (ix2 (0 : Fin 1) (0 : Fin 1))) :
    k0_pay1 (F := Ideal) x0 x4 x1 x2 x3 (ix3 u r o) = kerG X M n b g i := by
  rw [Body.body_apply]
  unfold kerG
  simp only [h0, h1, h2, h3, h4]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps over the grid: the input slab's batch and position blocks are the output's, every other block index is
    zero, and the output's block indices stay inside 8 × 4. -/
theorem idx_facts : ∀ t : Fin cfg0.N,
    win0_0.index t (0 : Fin 3) = win0_5.index t (0 : Fin 3) ∧ win0_0.index t (1 : Fin 3) = 0
    ∧ win0_0.index t (2 : Fin 3) = win0_5.index t (1 : Fin 3) ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 7 ∧ win0_5.index t (1 : Fin 3) ≤ 3 :=
  (by decide +kernel : ∀ t : Fin grid0.N, _)

/-- Every block of the 8 × 4 box is some point's. -/
theorem idx_onto : ∀ (q0 : Fin 8) (q1 : Fin 4), ∃ t : Fin cfg0.N, win0_5.index t = ![q0.val, q1.val, 0] :=
  (by decide +kernel : ∀ (q0 : Fin 8) (q1 : Fin 4), ∃ t : Fin grid0.N, win0_5.index t = ![q0.val, q1.val, 0])

/-- What point `t` writes back is block `t` of the layer of the arrays the region finds. -/
theorem flushed_eq (c : Dev nD) (t : Fin cfg0.N) :
    (dats m 0 c).flushed 5 t = ((cfg0.win 5).blk t).view.read (Elt Ideal)
      (kerG (V m c main_arg0) (V m c main_v7) (V m c main_v11) (V m c main_v12) (V m c main_v13)) := by
  rw [Value.flushed5]
  unfold out0_5
  rw [View.canon_unit_zero zeros3]
  simp only [View.ld_unit_zero (S := S1x288x4096) zeros3, View.ld_unit_zero (S := S1x1) zeros2,
    View.ld_unit_zero (S := S288x64) zeros2, View.ld_unit_zero (S := S1x64) zeros2]
  obtain ⟨e0, e1, e2, e3, e4, e5, e6, e7, e8, e9, e10, e11, e12, e13⟩ := idx_facts t
  refine funext fun (j : S1x4096x64.Idx) => ?_
  show k0_pay1 (F := Ideal) (iblk m c 0 t) (iblk m c 4 t) (iblk m c 1 t) (iblk m c 2 t) (iblk m c 3 t) j
    = kerG (V m c main_arg0) (V m c main_v7) (V m c main_v11) (V m c main_v12) (V m c main_v13) (((cfg0.win 5).blk t).view.emb j)
  refine (congrArg (k0_pay1 (F := Ideal) (iblk m c 0 t) (iblk m c 4 t) (iblk m c 1 t) (iblk m c 2 t) (iblk m c 3 t)) (eq_ix3 j)).trans ?_
  have hj0 : (j 0).val < 1 := (j 0).isLt
  have hj1 : (j 1).val < 4096 := (j 1).isLt
  have hj2 : (j 2).val < 64 := (j 2).isLt
  refine block_at (iblk m c 0 t) (iblk m c 4 t) (iblk m c 1 t) (iblk m c 2 t) (iblk m c 3 t)
    (V m c main_arg0) (V m c main_v7) (V m c main_v11) (V m c main_v12) (V m c main_v13)
    (((cfg0.win 5).blk t).view.emb j) (j 0) (j 1) (j 2) (fun k => ?_) (fun k => ?_) ?_ ?_ ?_
  · have hk : k.val < 288 := k.isLt
    have e : ((cfg0.win 0).blk t).view.emb (ix3 (0 : Fin 1) k (j 1))
        = ix3 ((((cfg0.win 5).blk t).view.emb j) 0) k ((((cfg0.win 5).blk t).view.emb j) 1) := by
      funext a; apply Fin.ext
      match a with
      | ⟨0, _⟩ => show win0_0.index t (0 : Fin 3) * 1 + 1 * 0 = win0_5.index t (0 : Fin 3) * 1 + 1 * (j 0).val; omega
      | ⟨1, _⟩ => show win0_0.index t (1 : Fin 3) * 288 + 1 * k.val = k.val; omega
      | ⟨2, _⟩ => show win0_0.index t (2 : Fin 3) * 4096 + 1 * (j 1).val = win0_5.index t (1 : Fin 3) * 4096 + 1 * (j 1).val; omega
    show V m c main_arg0 (((cfg0.win 0).blk t).view.emb (ix3 (0 : Fin 1) k (j 1))) = _
    rw [e]
    rfl
  · have hk : k.val < 288 := k.isLt
    have e : ((cfg0.win 1).blk t).view.emb (ix2 k (j 2)) = ix2 k ((((cfg0.win 5).blk t).view.emb j) 2) := by
      funext a; apply Fin.ext
      match a with
      | ⟨0, _⟩ => show win0_1.index t (0 : Fin 2) * 288 + 1 * k.val = k.val; omega
      | ⟨1, _⟩ => show win0_1.index t (1 : Fin 2) * 64 + 1 * (j 2).val = win0_5.index t (2 : Fin 3) * 64 + 1 * (j 2).val; omega
    show V m c main_v7 (((cfg0.win 1).blk t).view.emb (ix2 k (j 2))) = _
    rw [e]
    rfl
  · have e : ((cfg0.win 2).blk t).view.emb (ix2 (0 : Fin 1) (j 2)) = ix2 (0 : Fin 1) ((((cfg0.win 5).blk t).view.emb j) 2) := by
      funext a; apply Fin.ext
      match a with
      | ⟨0, _⟩ => show win0_2.index t (0 : Fin 2) * 1 + 1 * 0 = 0; omega
      | ⟨1, _⟩ => show win0_2.index t (1 : Fin 2) * 64 + 1 * (j 2).val = win0_5.index t (2 : Fin 3) * 64 + 1 * (j 2).val; omega
    show V m c main_v11 (((cfg0.win 2).blk t).view.emb (ix2 (0 : Fin 1) (j 2))) = _
    rw [e]
    rfl
  · have e : ((cfg0.win 3).blk t).view.emb (ix2 (0 : Fin 1) (j 2)) = ix2 (0 : Fin 1) ((((cfg0.win 5).blk t).view.emb j) 2) := by
      funext a; apply Fin.ext
      match a with
      | ⟨0, _⟩ => show win0_3.index t (0 : Fin 2) * 1 + 1 * 0 = 0; omega
      | ⟨1, _⟩ => show win0_3.index t (1 : Fin 2) * 64 + 1 * (j 2).val = win0_5.index t (2 : Fin 3) * 64 + 1 * (j 2).val; omega
    show V m c main_v12 (((cfg0.win 3).blk t).view.emb (ix2 (0 : Fin 1) (j 2))) = _
    rw [e]
    rfl
  · have e : ((cfg0.win 4).blk t).view.emb (ix2 (0 : Fin 1) (0 : Fin 1)) = ix2 (0 : Fin 1) (0 : Fin 1) := by
      funext a; apply Fin.ext
      match a with
      | ⟨0, _⟩ => show win0_4.index t (0 : Fin 2) * 1 + 1 * 0 = 0; omega
      | ⟨1, _⟩ => show win0_4.index t (1 : Fin 2) * 1 + 1 * 0 = 0; omega
    show V m c main_v13 (((cfg0.win 4).blk t).view.emb (ix2 (0 : Fin 1) (0 : Fin 1))) = _
    rw [e]

/-- An index of the output is in point `t`'s block iff each coordinate is in the block's range on its axis. -/
theorem mem_blk (t : Fin cfg0.N) (i : S8x16384x64.Idx) :
    i ∈ ((cfg0.win 5).blk t).view.set ↔ ∀ a : Fin 3, win0_5.index t a * S1x4096x64.size a ≤ (i a).val
      ∧ (i a).val < win0_5.index t a * S1x4096x64.size a + S1x4096x64.size a := by
  show i ∈ ((View.whole main_v14).slice (win0_5.rect t)).set ↔ _
  rw [View.set_slice_whole, Rect.mem_set_unit]
  exact Iff.rfl

/-- The blocks cover the output: position `(p, l, o)` lies in the block of the point with block indices `(p, l / 4096)`. -/
theorem cover (i : S8x16384x64.Idx) : ∃ t : Fin cfg0.N, (cfg0.win 5).flush t = true ∧ i ∈ ((cfg0.win 5).blk t).view.set := by
  have hi0 : (i 0).val < 8 := (i 0).isLt
  have hi1 : (i 1).val < 16384 := (i 1).isLt
  have hi2 : (i 2).val < 64 := (i 2).isLt
  obtain ⟨t, ht⟩ := idx_onto ⟨(i 0).val, hi0⟩ ⟨(i 1).val / 4096, by omega⟩
  have q0 : win0_5.index t (0 : Fin 3) = (i 0).val := congrFun ht 0
  have q1 : win0_5.index t (1 : Fin 3) = (i 1).val / 4096 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 4096 ≤ (i 1).val ∧ (i 1).val < win0_5.index t (1 : Fin 3) * 4096 + 4096; omega
  | ⟨2, _⟩ => show win0_5.index t (2 : Fin 3) * 64 ≤ (i 2).val ∧ (i 2).val < win0_5.index t (2 : Fin 3) * 64 + 64; omega

/-- After the run the output array is the layer of the arrays the region finds. -/
theorem final (c : Dev nD) : (dats m 0 c).arrAt 5 cfg0.N
    = kerG (V m c main_arg0) (V m c main_v7) (V m c main_v11) (V m c main_v12) (V m c main_v13) :=
  (dats m 0 c).arrAt_eq_of_cover 5 _ (fun t _ => flushed_eq m c t) cover

/-- The kernel's run with the output named: the layer of the arrays the region finds; the arguments unchanged. -/
theorem run : θ_run defs (onTc (τ := τ) (main (F := Ideal))) ⟨m, fun _ => 0, ρ⟩ fun r => ∀ c : Dev nD,
      r.2.mem ((c : Thread nD τ).loc main_v14)
        = kerG (V m c main_arg0) (V m c main_v7) (V m c main_v11) (V m c main_v12) (V m c main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Rbf.Blocks

end
-- ==== Proof.RbfJoin.lean ====
/-
  The kernel's output is the layer.

  The arrays the region finds are the prepared ones: the matrix `(2·γ)·wv`, the row `(-γ)·Σₖ wv(k,o)²`, the bias as a row and `γ`
  as a 1 × 1 array. Put into the kernel's spelling of the exponent they give
  `Σₖ x·((2·γ)·wv) − γ·Σₖ x² + (-γ)·Σₖ wv²`, which for real entries is `(-γ)·((Σₖ x² + Σₖ wv²) − 2·Σₖ x·wv)`: the layer's exponent.
  Distributivity is what joins them, so this is where the inputs have to be real numbers.
-/
import proofs.«124105_j28862180229634_1_alg».proof.Proof.RbfSpec
import proofs.«124105_j28862180229634_1_alg».proof.Proof.RbfHost
import proofs.«124105_j28862180229634_1_alg».proof.Proof.RbfBlocks

noncomputable section

open scoped BigOperators

namespace Cert.Rbf.Join

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The kernel's spelling at `(p, l, o)`. -/
theorem kerG_apply (X : S8x288x16384.Idx → EReal) (M : S288x64.Idx → EReal) (n b2 : S1x64.Idx → EReal) (g2 : S1x1.Idx → EReal)
    (p : Fin 8) (l : Fin 16384) (o : Fin 64) :
    Blocks.kerG X M n b2 g2 (ix3 p l o)
      = Ideal.exp (((∑ k : Fin 288, X (ix3 p k l) * M (ix2 k o))
          - g2 (ix2 (0 : Fin 1) (0 : Fin 1)) * ∑ k : Fin 288, X (ix3 p k l) * X (ix3 p k l)) + n (ix2 (0 : Fin 1) o))
        + b2 (ix2 (0 : Fin 1) o) := rfl

/-- The layer at `(p, l, o)`. -/
theorem rbf_apply (x : S8x288x16384.Idx → EReal) (wv : S288x64.Idx → EReal) (b : S64.Idx → EReal) (g : S_.Idx → EReal)
    (p : Fin 8) (l : Fin 16384) (o : Fin 64) :
    Cert.Rbf.rbf x wv b g (ix3 p l o)
      = Ideal.exp ((-(g ix0)) * (((∑ k : Fin 288, x (ix3 p k l) * x (ix3 p k l)) + ∑ k : Fin 288, wv (ix2 k o) * wv (ix2 k o))
          - Ideal.ofBits .f32 0x40000000#32 * ∑ k : Fin 288, x (ix3 p k l) * wv (ix2 k o))) + b (ix1 o) := rfl

/-- The two spellings agree on real entries, for any arrays `M`, `n`, `b2`, `g2` that hold `(2·γ)·wv`, `(-γ)·Σₖ wv²`, the bias
    and `γ`. -/
theorem kerG_eq_rbf (X : S8x288x16384.Idx → EReal) (M : S288x64.Idx → EReal) (n b2 : S1x64.Idx → EReal) (g2 : S1x1.Idx → EReal)
    (wv : S288x64.Idx → EReal) (b : S64.Idx → EReal) (g : S_.Idx → EReal)
    (hM : ∀ (k : Fin 288) (o : Fin 64), M (ix2 k o) = (Ideal.ofBits .f32 0x40000000#32 * g ix0) * wv (ix2 k o))
    (hn : ∀ o : Fin 64, n (ix2 (0 : Fin 1) o) = (-(g ix0)) * ∑ k : Fin 288, wv (ix2 k o) * wv (ix2 k o))
    (hb : ∀ o : Fin 64, b2 (ix2 (0 : Fin 1) o) = b (ix1 o))
    (hg2 : g2 (ix2 (0 : Fin 1) (0 : Fin 1)) = g ix0)
    (hX : ∀ i, ∃ r : ℝ, X i = (r : EReal)) (hW : ∀ i, ∃ r : ℝ, wv i = (r : EReal)) (hg : ∃ r : ℝ, g ix0 = (r : EReal)) :
    Blocks.kerG X M n b2 g2 = Cert.Rbf.rbf X wv b g := by
  funext i
  obtain ⟨p, l, o, rfl⟩ : ∃ (p : Fin 8) (l : Fin 16384) (o : Fin 64), i = ix3 p l o := ⟨i 0, i 1, i 2, eq_ix3 i⟩
  rw [kerG_apply, rbf_apply]
  simp only [hM, hn, hb, hg2]
  rw [exponent_law (Ideal.ofBits .f32 0x40000000#32) (g ix0) (fun k : Fin 288 => X (ix3 p k l)) (fun k : Fin 288 => wv (ix2 k o))
    two_real hg (fun k => hX _) (fun k => hW _)]

/-- For real inputs, the layer as the kernel spells it, over the arrays the region finds, is the layer of the arguments. -/
theorem kernel_eq (c : Dev nD)
    (hx : ∀ i, ∃ r : ℝ, (m ((c : Thread nD τ).loc main_arg0) : S8x288x16384.Idx → EReal) i = (r : EReal))
    (hw : ∀ i, ∃ r : ℝ, (m ((c : Thread nD τ).loc main_arg1) : S64x32x3x3.Idx → EReal) i = (r : EReal))
    (hg : ∀ i, ∃ r : ℝ, (m ((c : Thread nD τ).loc main_arg3) : S_.Idx → EReal) i = (r : EReal)) :
    Blocks.kerG (V m c main_arg0) (V m c main_v7) (V m c main_v11) (V m c main_v12) (V m c main_v13)
      = Cert.Rbf.rbf (m ((c : Thread nD τ).loc main_arg0)) (Host.wv m c) (m ((c : Thread nD τ).loc main_arg2))
          (m ((c : Thread nD τ).loc main_arg3)) := by
  have hX : ∀ i, ∃ r : ℝ, (V m c main_arg0 : S8x288x16384.Idx → EReal) i = (r : EReal) := by
    rw [V_main_arg0]; exact hx
  have h := kerG_eq_rbf (V m c main_arg0) (V m c main_v7) (V m c main_v11) (V m c main_v12) (V m c main_v13) (Host.wv m c)
    (m ((c : Thread nD τ).loc main_arg2)) (m ((c : Thread nD τ).loc main_arg3))
    (fun k o => Host.scaled_apply m c k o) (fun o => Host.negsq_apply m c 0 o) (fun o => Host.bias_apply m c 0 o)
    (Host.gamma_apply m c _) hX (fun i => hw _) (hg ix0)
  rw [V_main_arg0] at h
  exact h

end Cert.Rbf.Join

end
-- ==== Proof.lean ====
/-
  A Gaussian (radial basis function) layer: for a batch `p`, a position `l` and a channel `o`,
  `out(p,l,o) = exp (-γ · ‖x(p,·,l) − wv(·,o)‖²) + b(o)`, with `wv` the weight tensor re-read as a 288 × 64 matrix and the
  squared distance expanded as `Σ x² + Σ wv² − 2 · Σ x·wv`.

  The reference multiplies the expanded bracket by `-γ`. The kernel distributes `γ` beforehand: the host part scales the
  matrix by `2γ` and the column norms by `-γ`, and the kernel body, on a 288 × 4096 slab of the input per grid point, computes
  `exp (Σₖ x·(2γ·wv) − γ·Σₖ x² + (-γ)·Σₖ wv²) + b`. The 8 × 4 blocks tile the output, so the kernel's output is that
  expression at every position (Proof/RbfBody, RbfHost, RbfBlocks); the reference's output, read operation by operation, is
  the layer (Proof/RbfReference); and for real inputs the two exponents are one number by distributivity (Proof/RbfSpec,
  RbfJoin), the inputs being real under the precondition (Proof/RbfFinite). The three runs terminate with their arguments
  unchanged, and the idealization rewrote nothing.
-/
import proofs.«124105_j28862180229634_1_alg».proof.Defs
import proofs.«124105_j28862180229634_1_alg».proof.Proof.Gen.Kernel
import proofs.«124105_j28862180229634_1_alg».proof.Proof.Gen.Kernel.Skeleton
import proofs.«124105_j28862180229634_1_alg».proof.Proof.Gen.Kernel.Launch
import proofs.«124105_j28862180229634_1_alg».proof.Proof.Gen.Kernel.Points
import proofs.«124105_j28862180229634_1_alg».proof.Proof.Gen.Kernel.Frame
import proofs.«124105_j28862180229634_1_alg».proof.Proof.Gen.KernelIdeal
import proofs.«124105_j28862180229634_1_alg».proof.Proof.Gen.KernelIdeal.Skeleton
import proofs.«124105_j28862180229634_1_alg».proof.Proof.Gen.KernelIdeal.Launch
import proofs.«124105_j28862180229634_1_alg».proof.Proof.Gen.KernelIdeal.Points
import proofs.«124105_j28862180229634_1_alg».proof.Proof.Gen.KernelIdeal.Frame
import proofs.«124105_j28862180229634_1_alg».proof.Proof.Gen.ReferenceIdeal
import proofs.«124105_j28862180229634_1_alg».proof.Proof.Gen.Pre_finite_inputs
import proofs.«124105_j28862180229634_1_alg».proof.Proof.Gen.KernelIdeal.Value
import proofs.«124105_j28862180229634_1_alg».proof.Proof.Gen.ReferenceIdeal.Run
import proofs.«124105_j28862180229634_1_alg».proof.Proof.Gen.ReferenceIdeal.Read
import proofs.«124105_j28862180229634_1_alg».proof.Proof.RbfFinite
import proofs.«124105_j28862180229634_1_alg».proof.Proof.RbfReference
import proofs.«124105_j28862180229634_1_alg».proof.Proof.RbfJoin
import Idealize.ShloMosaic.Adequacy
import Idealize.ShloMosaic.Init

noncomputable section

namespace Cert.Proof

open Idealize.ShloMosaic Idealize.ShloMosaic.TcCoe Idealize.SL.Sem

/-- The word-level kernel terminates with its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a sequence of host operations: it terminates with each buffer at its operations' term. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on real-valued arguments both programs end with the layer of those arguments. -/
theorem algebraic : Cert.algebraic_KernelIdeal_ReferenceIdeal := by
  intro m ρ m' ρ' hpre hagree
  refine ⟨fun c => Cert.Rbf.rbf (m ((c : Thread Cert.KernelIdeal.nD Cert.KernelIdeal.τ).loc Cert.KernelIdeal.main_arg0))
      (Cert.Rbf.Host.wv m c) (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.Rbf.Blocks.run m ρ)
    obtain ⟨hx, hw, -, hg⟩ := Cert.Rbf.finite_of_pre _ _ _ _ (hpre c)
    exact Cert.Rbf.Join.kernel_eq m c hx hw hg
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.Rbf.Reference.reference_eq, (hagree c).1, (hagree c).2.1,
      (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
